-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S16384 : Shape := ⟨1, ![16384]⟩
abbrev S256x4096 : Shape := ⟨2, ![256, 4096]⟩
abbrev S256 : Shape := ⟨1, ![256]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384, .f32⟩
  | .local _ .vmem, ⟨0, _⟩ => ⟨S256x4096, .f32⟩
  | .local _ .vmem, ⟨1, _⟩ => ⟨S256x4096, .f32⟩
  | .local _ .vmem, ⟨2, _⟩ => ⟨S4096, .f32⟩
  | .local _ .vmem, ⟨3, _⟩ => ⟨S256, .f32⟩
  | .local _ .vmem, ⟨4, _⟩ => ⟨S256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  reduces_S256x4096_S256 : S256x4096.Reduces [1] S256
  inb_S256_S256_0 : ∀ a, (![0] : Fin 1 → Nat) a + S256.size a ≤ S256.size a
  h_S256 : 0 < S256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S1x4096 : Shape := ⟨2, ![1, 4096]⟩
abbrev S_ : Shape := ⟨0, ![]⟩
abbrev S16384 : Shape := ⟨1, ![16384]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  h_S_ : 0 < S_.numel

variable [Facts₀]

class Facts : Prop extends Facts₀ where

variable [Facts]
-- ==== Proof.Spec.lean ====
/-
  The function both programs compute, stated once over literal shapes.

  For an input matrix `x` of 16384 rows and 4096 features and a weight vector `w` of 4096 features, row `r` of
  the result is the weighted sum of that row's squares,  Σ_f (x[r,f] · x[r,f]) · w[f],  a sum of 4096 extended reals
  with the products associated as written: first the square, then the weight. No law of the extended reals beyond
  `0 + s = s` is needed to join the two programs, so finiteness of the inputs is never used.
-/
import Idealize.ShloMosaic.PureOps.Ideal
import Idealize.ShloMosaic.PureOps.Ideal.Laws
import Idealize.ShloMosaic.Lib.ValueIdx

noncomputable section

open scoped BigOperators

namespace Cert.DiagDot

open Idealize.ShloMosaic Idealize.ShloMosaic.ValueIdx

/-- Row `r`, feature `f` of the input matrix, as an index of the rank-2 array. -/
abbrev cell (r : Fin 16384) (f : Fin 4096) : (⟨2, ![16384, 4096]⟩ : Shape).Idx := ix2 r f

/-- Feature `f` of the weight vector, as an index of the rank-1 array. -/
abbrev feat (f : Fin 4096) : (⟨1, ![4096]⟩ : Shape).Idx := ix1 f

/-- The weighted sum of squares of row `r`:  Σ_f (x[r,f] · x[r,f]) · w[f]. -/
def rowSum (x : FVec Ideal ⟨2, ![16384, 4096]⟩ .f32) (w : FVec Ideal ⟨1, ![4096]⟩ .f32) (r : Fin 16384) : EReal :=
  ∑ f : Fin 4096, x (cell r f) * x (cell r f) * w (feat f)

/-- The result array: entry `i` is the weighted sum of squares of row `i`. -/
def weightedSquares (x : FVec Ideal ⟨2, ![16384, 4096]⟩ .f32) (w : FVec Ideal ⟨1, ![4096]⟩ .f32) :
    FVec Ideal ⟨1, ![16384]⟩ .f32 :=
  fun i => rowSum x w (i 0)

theorem weightedSquares_apply (x : FVec Ideal ⟨2, ![16384, 4096]⟩ .f32) (w : FVec Ideal ⟨1, ![4096]⟩ .f32)
    (r : Fin 16384) : weightedSquares x w (ix1 r) = rowSum x w r := rfl

end Cert.DiagDot

end
-- ==== Proof.RefValue.lean ====
/-
  The reference at the ideal values is the weighted sum of squares.

  The reference multiplies the input by itself, broadcasts the weight vector along the rows, multiplies, and sums over
  the feature axis from the initial value 0. Read at row `i`, that is  0 + Σ_f (x[i,f] · x[i,f]) · w[f];  the initial
  value is the extended real 0, so the row entry is the specification's `rowSum`.
-/
import proofs.«150891_j27917287424359_1_alg».proof.Proof.Gen.ReferenceIdeal.Read
import proofs.«150891_j27917287424359_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.DiagDot

/-- The summed axis' coordinate `f` inserted into row `i` is the matrix cell (i, f). -/
theorem summand_cell (i : S16384.Idx) (f : Fin 4096) : idx_main_v4 i f = cell (i 0) f :=
  funext fun a => Fin.ext (by match a with | ⟨0, _⟩ => rfl | ⟨1, _⟩ => rfl)

/-- Through the two broadcasts, cell (i, f) of the broadcast weight reads feature `f` of the weight vector. -/
theorem summand_feat (i : S16384.Idx) (f : Fin 4096) : idx_main_v1 (idx_main_v2 (idx_main_v4 i f)) = feat f :=
  funext fun a => Fin.ext (by match a with | ⟨0, _⟩ => rfl)

/-- The reference's result is the specification of its two arguments. -/
theorem result_eq (x : (⟨S16384x4096, .f32⟩ : BufTy).Contents (Elt Ideal)) (w : (⟨S4096, .f32⟩ : BufTy).Contents (Elt Ideal)) :
    val_main_v4 (F := Ideal) x w = weightedSquares x w := by
  funext i
  rw [val_main_v4_apply]
  simp only [val_main_cst_apply, Ideal.ofBits_def, Ideal.ofBits_zero_f32, zero_add]
  show _ = ∑ f : Fin 4096, x (cell (i 0) f) * x (cell (i 0) f) * w (feat f)
  refine Finset.sum_congr rfl fun (f : Fin 4096) _ => ?_
  rw [val_main_v3_apply, val_main_v0_apply, val_main_v2_apply, val_main_v1_apply, summand_feat, summand_cell]
  rfl

end Cert.ReferenceIdeal.RefValue

end
-- ==== Proof.BodyValue.lean ====
/-
  What the kernel body stores, read at one row of the block.

  The body loads a block of 256 rows by 4096 features and the whole weight vector, squares the block entry by entry,
  multiplies by the weight vector laid along every row (a cast to one row of 4096, then a broadcast over the 256
  rows), and sums each row over the feature axis. At row `p` the stored value is therefore
  Σ_f (x0[p,f] · x0[p,f]) · x1[f],  the lane sum being a plain sum at the ideal values and its zero start dropping out.
-/
import proofs.«150891_j27917287424359_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.BodyValue

open Cert.KernelIdeal Cert.KernelIdeal.Gen
open Idealize.ShloMosaic Idealize.ShloMosaic.ValueIdx

/-- The weight vector cast to one row and broadcast over the block's rows reads, at (p, f), the weight of feature `f`. -/
theorem weightRow_apply (x1 : Vec Ideal S4096 .f32) (hc : S4096.ShapeCasts S1x4096) (hb : S1x4096.Broadcasts S256x4096)
    (p : Fin 256) (f : Fin 4096) :
    broadcastTo S256x4096 (shapeCast S1x4096 x1 hc) hb (ix2 p f) = x1 (ix1 f) := by
  rw [broadcastTo_apply _ hb (ix2 p f) (ix2 (0 : Fin 1) f) (fun a => by
    match a with
    | ⟨0, _⟩ => rfl
    | ⟨1, _⟩ => rfl)]
  exact shapeCast_apply x1 hc (ix2 (0 : Fin 1) f) (ix1 f) (by
    rw [Shape.rowMajor_val_one, Shape.rowMajor_val_two]
    show f.val = (0 : Nat) * 4096 + f.val
    omega)

/-- Inserting feature `f` on the summed axis of row `p` gives the block cell (p, f). -/
theorem lift_cell (h : S256x4096.Reduces [1] S256) (p : Fin 256) (f : Fin 4096) :
    h.lift (ix1 p) f = ix2 p f :=
  funext fun a => Fin.ext (by match a with | ⟨0, _⟩ => rfl | ⟨1, _⟩ => rfl)

/-- The stored value at row `p`: the weighted sum of that row's squares. -/
theorem stored_apply (x0 : Vec Ideal S256x4096 .f32) (x1 : Vec Ideal S4096 .f32) (p : Fin 256) :
    k0_pay1 (F := Ideal) x0 x1 (ix1 p) = ∑ f : Fin 4096, x0 (ix2 p f) * x0 (ix2 p f) * x1 (ix1 f) := by
  unfold k0_pay1
  refine (Ideal.multiReduction_add_single _ _ reduces_S256x4096_S256 _ _ (ix1 p)).trans ?_
  refine Finset.sum_congr rfl fun (f : Fin 4096) _ => ?_
  rw [lift_cell reduces_S256x4096_S256 p f, mulf_apply, mulf_apply, weightRow_apply]

end Cert.KernelIdeal.BodyValue

end
-- ==== Proof.ArrayValue.lean ====
/-
  From the blocks to the whole result array.

  The grid has 64 points. Point `t` stages rows 256·t … 256·t + 255 of the input matrix (all 4096 features), the whole
  weight vector, and writes back entries 256·t … 256·t + 255 of the result. Entry `p` of the block written at point `t`
  is the body's stored value at row `p` of the staged rows, which is the weighted sum of squares of matrix row
  256·t + p. The 64 blocks tile the 16384 entries (entry `i` lies in the block of point `i / 256`), so the result array
  ends holding the specification of the two argument arrays.
-/
import proofs.«150891_j27917287424359_1_alg».proof.Proof.Gen.KernelIdeal.Value
import proofs.«150891_j27917287424359_1_alg».proof.Proof.BodyValue
import proofs.«150891_j27917287424359_1_alg».proof.Proof.Spec

noncomputable section

open scoped BigOperators

namespace Cert.KernelIdeal.ArrayValue

open Cert.KernelIdeal Cert.KernelIdeal.Gen Cert.KernelIdeal.BodyValue Cert.DiagDot
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The index maps, decided over the 64 grid points: the matrix window's row-block index is the result window's block
    index, its feature-block index is 0, and the weight window always stages block 0. -/
theorem blockIndices : ∀ t : Fin cfg0.N, win0_0.index t (0 : Fin 2) = win0_2.index t (0 : Fin 1)
    ∧ win0_0.index t (1 : Fin 2) = 0
    ∧ win0_1.index t (0 : Fin 1) = 0 :=
  (by decide +kernel : ∀ t : Fin grid0.N, _)

/-- Every one of the 64 result blocks is some grid point's. -/
theorem blockOnto : ∀ q : Fin 64, ∃ t : Fin cfg0.N, win0_2.index t = ![q.val] :=
  (by decide +kernel : ∀ q : Fin 64, ∃ t : Fin grid0.N, win0_2.index t = ![q.val])

/-- Row `p` of a staged block whose rows are rows of `X` (row `p` being row `r`) and whose weights are `W`: the
    stored value is the weighted sum of squares of row `r`. -/
theorem block_row (x0 : Vec Ideal S256x4096 .f32) (x1 : Vec Ideal S4096 .f32)
    (X : FVec Ideal ⟨2, ![16384, 4096]⟩ .f32) (W : FVec Ideal ⟨1, ![4096]⟩ .f32) (r : Fin 16384) (p : Fin 256)
    (h0 : ∀ f : Fin 4096, x0 (ix2 p f) = X (cell r f)) (h1 : ∀ f : Fin 4096, x1 (ix1 f) = W (feat f)) :
    k0_pay1 (F := Ideal) x0 x1 (ix1 p) = rowSum X W r :=
  (stored_apply x0 x1 p).trans (Finset.sum_congr rfl fun f _ => by rw [h0 f, h1 f])

/-- What point `t` writes back is block `t` of the specification of the argument arrays. -/
theorem flushed_eq (c : Dev nD) (t : Fin cfg0.N) :
    (dats m 0 c).flushed 2 t
      = ((cfg0.win 2).blk t).view.read (Elt Ideal) (weightedSquares (V m c main_arg0) (V m c main_arg1)) := by
  rw [Cert.KernelIdeal.Value.flushed2]
  unfold out0_2
  rw [View.canon_unit_zero origin1]
  simp only [View.ld_unit_zero (S := S256x4096) origin2, View.ld_unit_zero (S := S4096) origin1]
  obtain ⟨e0, e1, e2⟩ := blockIndices t
  funext j
  obtain ⟨p, rfl⟩ : ∃ p : Fin 256, j = ix1 p := ⟨j 0, eq_ix1 j⟩
  show k0_pay1 (F := Ideal) (iblk m c 0 t) (iblk m c 1 t) (ix1 p)
    = rowSum (V m c main_arg0) (V m c main_arg1) ((((cfg0.win 2).blk t).view.emb (ix1 p)) 0)
  refine block_row (iblk m c 0 t) (iblk m c 1 t) (V m c main_arg0) (V m c main_arg1) _ p (fun f => ?_) (fun f => ?_)
  · show V m c main_arg0 (((cfg0.win 0).blk t).view.emb (ix2 p f))
      = V m c main_arg0 (cell ((((cfg0.win 2).blk t).view.emb (ix1 p)) 0) f)
    have h : ((cfg0.win 0).blk t).view.emb (ix2 p f) = cell ((((cfg0.win 2).blk t).view.emb (ix1 p)) 0) f := by
      funext a; apply Fin.ext
      match a with
      | ⟨0, _⟩ =>
        show win0_0.index t (0 : Fin 2) * 256 + 1 * p.val = win0_2.index t (0 : Fin 1) * 256 + 1 * p.val
        rw [e0]
      | ⟨1, _⟩ =>
        show win0_0.index t (1 : Fin 2) * 4096 + 1 * f.val = f.val
        rw [e1]; omega
    rw [h]
  · show V m c main_arg1 (((cfg0.win 1).blk t).view.emb (ix1 f)) = V m c main_arg1 (feat f)
    have h : ((cfg0.win 1).blk t).view.emb (ix1 f) = feat f := by
      funext a; apply Fin.ext
      match a with
      | ⟨0, _⟩ =>
        show win0_1.index t (0 : Fin 1) * 4096 + 1 * f.val = f.val
        rw [e2]; omega
    rw [h]

/-- An entry of the result lies in point `t`'s block iff it lies in the 256 entries starting at 256 times the block index. -/
theorem mem_block (t : Fin cfg0.N) (i : S16384.Idx) :
    i ∈ ((cfg0.win 2).blk t).view.set
      ↔ ∀ a : Fin 1, win0_2.index t a * S256.size a ≤ (i a).val ∧ (i a).val < win0_2.index t a * S256.size a + S256.size a := by
  show i ∈ ((View.whole main_v0).slice (win0_2.rect t)).set ↔ _
  rw [View.set_slice_whole, Rect.mem_set_unit]
  exact Iff.rfl

/-- Every entry of the result lies in the block of some point that writes back: entry `i` in block `i / 256`. -/
theorem covered (i : S16384.Idx) :
    ∃ t : Fin cfg0.N, (cfg0.win 2).flush t = true ∧ i ∈ ((cfg0.win 2).blk t).view.set := by
  have hi : (i 0).val < 16384 := (i 0).isLt
  obtain ⟨t, ht⟩ := blockOnto ⟨(i 0).val / 256, by omega⟩
  have q0 : win0_2.index t (0 : Fin 1) = (i 0).val / 256 := congrFun ht 0
  refine ⟨t, flush0_2 t, ?_⟩
  rw [mem_block]
  intro a
  match a with
  | ⟨0, _⟩ =>
    show win0_2.index t (0 : Fin 1) * 256 ≤ (i 0).val ∧ (i 0).val < win0_2.index t (0 : Fin 1) * 256 + 256
    omega

/-- The result array after the run is the specification of the argument arrays. -/
theorem final (c : Dev nD) :
    (dats m 0 c).arrAt 2 cfg0.N
      = weightedSquares (m ((c : Thread nD τ).loc main_arg0)) (m ((c : Thread nD τ).loc main_arg1)) :=
  (dats m 0 c).arrAt_eq_of_cover 2 (weightedSquares (V m c main_arg0) (V m c main_arg1))
    (fun t _ => flushed_eq m c t) covered

/-- The kernel's run: the result array ends at the specification, the arguments unchanged. -/
theorem run : θ_run defs (onTc (τ := τ) (main (F := Ideal))) ⟨m, fun _ => 0, ρ⟩ fun r => ∀ c : Dev nD,
      r.2.mem ((c : Thread nD τ).loc main_v0)
        = weightedSquares (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.lean ====
/-
  Row-wise weighted sum of squares: the kernel against its reference, over the extended reals.

  Both programs take a matrix `x` of 16384 rows by 4096 features and a weight vector `w` of 4096 features and return,
  for each row `r`, the sum over the features of (x[r,f] · x[r,f]) · w[f].

  * The reference squares the whole matrix, broadcasts `w` along the rows, multiplies, and sums over the feature axis
    from the initial value 0.
  * The kernel walks a grid of 64 points; point `t` stages rows 256·t … 256·t + 255 and the whole weight vector,
    squares the staged rows, multiplies each by the weight vector, sums every row over its 4096 lanes, and writes the
    256 sums back as entries 256·t … 256·t + 255 of the result.

  At the ideal values the lane sum and the host's sum are both plain sums of 4096 extended reals, the products are
  associated the same way on both sides (first the square, then the weight), and the initial 0 is the additive unit.
  So the two results are one function of the arguments, entry by entry, with no use of the inputs' finiteness; the
  64 blocks of 256 entries tile the 16384 entries of the result.

  The three frames are the generated frame runs (for the reference, its generated run with the result dropped); the
  idealization rewrote no operation, so its conjunct is trivial.
-/
import proofs.«150891_j27917287424359_1_alg».proof.Defs
import proofs.«150891_j27917287424359_1_alg».proof.Proof.Gen.Kernel
import proofs.«150891_j27917287424359_1_alg».proof.Proof.Gen.Kernel.Skeleton
import proofs.«150891_j27917287424359_1_alg».proof.Proof.Gen.Kernel.Launch
import proofs.«150891_j27917287424359_1_alg».proof.Proof.Gen.Kernel.Points
import proofs.«150891_j27917287424359_1_alg».proof.Proof.Gen.Kernel.Frame
import proofs.«150891_j27917287424359_1_alg».proof.Proof.Gen.KernelIdeal
import proofs.«150891_j27917287424359_1_alg».proof.Proof.Gen.KernelIdeal.Skeleton
import proofs.«150891_j27917287424359_1_alg».proof.Proof.Gen.KernelIdeal.Launch
import proofs.«150891_j27917287424359_1_alg».proof.Proof.Gen.KernelIdeal.Points
import proofs.«150891_j27917287424359_1_alg».proof.Proof.Gen.KernelIdeal.Frame
import proofs.«150891_j27917287424359_1_alg».proof.Proof.Gen.ReferenceIdeal
import proofs.«150891_j27917287424359_1_alg».proof.Proof.Gen.Pre_finite_inputs
import proofs.«150891_j27917287424359_1_alg».proof.Proof.Gen.KernelIdeal.Value
import proofs.«150891_j27917287424359_1_alg».proof.Proof.Gen.ReferenceIdeal.Run
import proofs.«150891_j27917287424359_1_alg».proof.Proof.Gen.ReferenceIdeal.Read
import proofs.«150891_j27917287424359_1_alg».proof.Proof.Spec
import proofs.«150891_j27917287424359_1_alg».proof.Proof.RefValue
import proofs.«150891_j27917287424359_1_alg».proof.Proof.BodyValue
import proofs.«150891_j27917287424359_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the matrix and the weights both programs end with the result array at the weighted sums of
    squares of the rows: the kernel by its 64 blocks, the reference by reading its sum at a row. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
